-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4096x1024 : Shape := ⟨2, ![4096, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x4096x1024 .f32) (main_arg1 : FVec F S4096x1024 .f32) (main_arg2 : FVec F S1024 .f32) (main_arg3 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x4096x1024 : Shape := ⟨3, ![4, 4096, 1024]⟩
abbrev S4096x1024 : Shape := ⟨2, ![4096, 1024]⟩
abbrev S1024 : Shape := ⟨1, ![1024]⟩
abbrev S1x1024 : Shape := ⟨2, ![1, 1024]⟩
abbrev S4x512x1024 : Shape := ⟨3, ![4, 512, 1024]⟩
abbrev S512x1024 : Shape := ⟨2, ![512, 1024]⟩
abbrev S1x512x1024 : Shape := ⟨3, ![1, 512, 1024]⟩
abbrev S4x512 : Shape := ⟨2, ![4, 512]⟩
abbrev S4x512x1 : Shape := ⟨3, ![4, 512, 1]⟩
abbrev S1x1x1024 : Shape := ⟨3, ![1, 1, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4x4096x1024, .f32⟩
  | .local _ .vmem, ⟨0, _⟩ => ⟨S4x512x1024, .f32⟩
  | .local _ .vmem, ⟨1, _⟩ => ⟨S4x512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S4x512x1024, .f32⟩
  | .local _ .vmem, ⟨7, _⟩ => ⟨S4x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1024_S1x1024 : S1024.ShapeCasts S1x1024
  inb_S4x512x1024_S4x512x1024_0_0_0 : ∀ a, (![0, 0, 0] : Fin 3 → Nat) a + S4x512x1024.size a ≤ S4x512x1024.size a
  h_S4x512x1024 : 0 < S4x512x1024.numel
  inb_S512x1024_S512x1024_0_0 : ∀ a, (![0, 0] : Fin 2 → Nat) a + S512x1024.size a ≤ S512x1024.size a
  h_S512x1024 : 0 < S512x1024.numel
  shapeCasts_S512x1024_S1x512x1024 : S512x1024.ShapeCasts S1x512x1024
  broadcasts_S1x512x1024_S4x512x1024 : S1x512x1024.Broadcasts S4x512x1024
  reduces_S4x512x1024_S4x512 : S4x512x1024.Reduces [2] S4x512
  shapeCasts_S4x512_S4x512x1 : S4x512.ShapeCasts S4x512x1
  broadcasts_S4x512x1_S4x512x1024 : S4x512x1.Broadcasts S4x512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1x1x1024 : S1x1024.ShapeCasts S1x1x1024
  broadcasts_S1x1x1024_S4x512x1024 : S1x1x1024.Broadcasts S4x512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1024.size a ≤ S4x4096x1024.size a
  hwx0_0 : ∀ i : grid0.Coords, EltTy.bits .f32 = 32 ∨ (Rect.block (s := S4x4096x1024) S4x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x1024.size a ≤ S4x4096x1024.size a
  hwx0_4 : ∀ i : grid0.Coords, EltTy.bits .f32 = 32 ∨ (Rect.block (s := S4x4096x1024) S4x512x1024.size (cc0_transform_4 i) (hinb0_4 i)).WholeWords (EltTy.packing .f32)

variable [Facts₀]

abbrev win0_0 : Pipeline.Window sig grid0 :=
  Pipeline.Window.ofSpec (Memref.whole main_arg0) S4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4096x1024 : Shape := ⟨2, ![4096, 1024]⟩
abbrev S1024 : Shape := ⟨1, ![1024]⟩
abbrev S4096 : Shape := ⟨1, ![4096]⟩
abbrev S1x4096 : Shape := ⟨2, ![1, 4096]⟩
abbrev S4x4096 : Shape := ⟨2, ![4, 4096]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096, .i32⟩
  | .hbm, ⟨5, _⟩ => ⟨S1x4096, .i32⟩
  | .hbm, ⟨6, _⟩ => ⟨S4x4096, .i32⟩
  | .hbm, ⟨7, _⟩ => ⟨S_, .i32⟩
  | .hbm, ⟨8, _⟩ => ⟨S4x4096, .i32⟩
  | .hbm, ⟨9, _⟩ => ⟨S4x4096, .i1⟩
  | .hbm, ⟨10, _⟩ => ⟨S_, .i32⟩
  | .hbm, ⟨11, _⟩ => ⟨S4x4096, .i32⟩
  | .hbm, ⟨12, _⟩ => ⟨S4x4096, .i32⟩
  | .hbm, ⟨13, _⟩ => ⟨S4x4096, .i32⟩
  | .hbm, ⟨14, _⟩ => ⟨S4x4096x1, .i32⟩
  | .hbm, ⟨15, _⟩ => ⟨S1, .i32⟩
  | .hbm, ⟨16, _⟩ => ⟨S_, .i32⟩
  | .hbm, ⟨17, _⟩ => ⟨S4x4096x1, .i32⟩
  | .hbm, ⟨18, _⟩ => ⟨S4x4096x1, .i1⟩
  | .hbm, ⟨19, _⟩ => ⟨S1x1x1, .i32⟩
  | .hbm, ⟨20, _⟩ => ⟨S4x4096x1, .i32⟩
  | .hbm, ⟨21, _⟩ => ⟨S4x4096x1, .i1⟩
  | .hbm, ⟨22, _⟩ => ⟨S4x4096x1, .i1⟩
  | .hbm, ⟨23, _⟩ => ⟨S_, .i1⟩
  | .hbm, ⟨24, _⟩ => ⟨S4x4096, .i1⟩
  | .hbm, ⟨25, _⟩ => ⟨S4x4096x1024, .f32⟩
  | .hbm, ⟨26, _⟩ => ⟨S4x4096x1024, .i1⟩
  | .hbm, ⟨27, _⟩ => ⟨S_, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1024, .f32⟩
  | .hbm, ⟨47, _⟩ => ⟨S4x4096x1024, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x1, .f32⟩
  | .hbm, ⟨52, _⟩ => ⟨S4x4096x1024, .f32⟩
  | .hbm, ⟨53, _⟩ => ⟨S4x4096x1024, .f32⟩
  | .hbm, ⟨54, _⟩ => ⟨S1x1x1024, .f32⟩
  | .hbm, ⟨55, _⟩ => ⟨S4x4096x1024, .f32⟩
  | .hbm, ⟨56, _⟩ => ⟨S4x4096x1024, .f32⟩
  | .hbm, ⟨57, _⟩ => ⟨S1x1x1024, .f32⟩
  | .hbm, ⟨58, _⟩ => ⟨S4x4096x1024, .f32⟩
  | .hbm, ⟨59, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4x4096_0_1 : S1x4096.BroadcastsInDim S4x4096 (![0, 1] : Fin 2 → Fin S4x4096.rank)
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S1_S1x1x1_2 : S1.BroadcastsInDim S1x1x1 (![2] : Fin 1 → Fin S1x1x1.rank)
  bcast_S1x1x1_S4x4096x1_0_1_2 : S1x1x1.BroadcastsInDim S4x4096x1 (![0, 1, 2] : Fin 3 → Fin S4x4096x1.rank)
  reducesTo_S4x4096x1_S4x4096_d2 : S4x4096x1.ReducesTo [2] S4x4096
  h_S_ : 0 < S_.numel
  bcast_S4x4096_S4x4096x1024_0_1 : S4x4096.BroadcastsInDim S4x4096x1024 (![0, 1] : Fin 2 → Fin S4x4096x1024.rank)
  bcast_S_S4x4096x1024 : S_.BroadcastsInDim S4x4096x1024 (![] : Fin 0 → Fin S4x4096x1024.rank)
  reducesTo_S4x4096x1024_S4x4096_d2 : S4x4096x1024.ReducesTo [2] S4x4096
  bcast_S4x4096x1_S4x4096x1024_0_1_2 : S4x4096x1.BroadcastsInDim S4x4096x1024 (![0, 1, 2] : Fin 3 → Fin S4x4096x1024.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  gather_S4096x1024_S4x4096x1_S4x4096x1024_2_0_n_n_0_2_11024_wf : GatherDims.WF S4096x1024 S4x4096x1 S4x4096x1024 [2] [0] [] [0] [] 2 ![1, 1024]

variable [Facts₀]

def gather_S4096x1024_S4x4096x1_S4x4096x1024_2_0_n_n_0_2_11024 : GatherDims S4096x1024 S4x4096x1 S4x4096x1024 where
  offsetDims := [2]
  collapsedSliceDims := [0]
  operandBatchingDims := []
  startIndicesBatchingDims := []
  startIndexMap := [0]
  indexVectorDim := 2
  sliceSizes := ![1, 1024]
  wf := gather_S4096x1024_S4x4096x1_S4x4096x1024_2_0_n_n_0_2_11024_wf

class Facts : Prop extends Facts₀ where

variable [Facts]
-- ==== Proof.RowNorm.lean ====
/-
  One row of a layer normalisation on the extended reals, in the two spellings the two programs use.

  For a row `e` of 1024 extended reals, its mean is the row's sum divided by 1024 and its variance the mean
  of the squared deviations.  One program multiplies a deviation by the reciprocal square root of
  variance + ε, the other divides it by the square root of variance + ε.  A square is never negative on
  the extended reals (⊥ · ⊥ = ⊤), so the variance is ≥ 0 and variance + ε lies in (0, ⊤]; on that
  interval `x · rsqrt y = x / sqrt y` for every extended real x: for a positive real y both are
  x · (√y)⁻¹, and at y = ⊤ both are x · 0.  No finiteness of the row is needed.
-/
import Idealize.ShloMosaic.PureOps.Ideal
import Idealize.ShloMosaic.PureOps.Ideal.Laws
import Mathlib.Data.EReal.Inv
import Mathlib.Algebra.Order.BigOperators.Group.Finset

noncomputable section

namespace Cert.RowNorm

open Idealize.ShloMosaic

/-- The word `0x44800000` is the real 1024. -/
theorem word_1024 : Ideal.ofBits .f32 0x44800000#32 = ((1024 : ℝ) : EReal) := by
  simp [Ideal.ofBits, Ideal.ieee, -EReal.coe_mul]; norm_num

/-- The word `0x3727C5AC` (the float nearest to 10⁻⁵) is a positive real. -/
theorem word_eps : ∃ r : ℝ, 0 < r ∧ Ideal.ofBits .f32 0x3727C5AC#32 = (r : EReal) := by
  refine ⟨(2 ^ 23 + 2606508 : ℕ) * (2 : ℝ) ^ ((110 : ℤ) - 127 - 23), by positivity, ?_⟩
  simp [Ideal.ofBits, Ideal.ieee, -EReal.coe_mul]

/-- On (0, ⊤] multiplying by the reciprocal square root is dividing by the square root. -/
theorem mul_rsqrt_eq_div_sqrt (x y : EReal) (hy : 0 < y) : x * Ideal.rsqrt y = Ideal.div x (Ideal.sqrt y) := by
  induction y using EReal.rec with
  | bot => exact absurd hy (not_lt.mpr bot_le)
  | top =>
    rw [Ideal.rsqrt_top, Ideal.sqrt_top, Ideal.div, if_neg EReal.top_ne_zero, EReal.inv_top]
  | coe r =>
    have hr : 0 < r := EReal.coe_pos.mp hy
    have hs : Real.sqrt r ≠ 0 := (Real.sqrt_pos.mpr hr).ne'
    rw [Ideal.rsqrt_coe, if_neg (not_lt.mpr hr.le), if_neg hr.ne', Ideal.sqrt_coe, if_neg (not_lt.mpr hr.le),
      Ideal.div, if_neg (by exact_mod_cast hs), EReal.coe_inv]

/-- A square is never negative on the extended reals. -/
theorem mul_self_nonneg (a : EReal) : 0 ≤ a * a :=
  EReal.mul_nonneg_iff.mpr ((le_total 0 a).elim (fun h => .inl ⟨h, h⟩) (fun h => .inr ⟨h, h⟩))

/-- Dividing by the word 1024 keeps a value ≥ 0. -/
theorem div_1024_nonneg {x : EReal} (hx : 0 ≤ x) : 0 ≤ Ideal.div x (Ideal.ofBits .f32 0x44800000#32) := by
  rw [word_1024, Ideal.div_coe (by norm_num)]
  exact EReal.mul_nonneg hx (EReal.coe_nonneg.mpr (by norm_num))

/-- The row's mean. -/
def mean (e : Fin 1024 → EReal) : EReal := Ideal.div (∑ k, e k) (Ideal.ofBits .f32 0x44800000#32)

/-- The row's variance: the mean of the squared deviations from the mean. -/
def var (e : Fin 1024 → EReal) : EReal :=
  Ideal.div (∑ k, (e k - mean e) * (e k - mean e)) (Ideal.ofBits .f32 0x44800000#32)

theorem var_nonneg (e : Fin 1024 → EReal) : 0 ≤ var e :=
  div_1024_nonneg (Finset.sum_nonneg fun k _ => mul_self_nonneg _)

theorem var_add_eps_pos (e : Fin 1024 → EReal) : 0 < var e + Ideal.ofBits .f32 0x3727C5AC#32 := by
  obtain ⟨r, hr, h⟩ := word_eps
  rw [h]
  exact Right.add_pos_of_nonneg_of_pos (var_nonneg e) (EReal.coe_pos.mpr hr)

/-- Entry `h` of the normalised row, scaled by `w` and shifted by `b`: the reciprocal-square-root spelling. -/
def outMul (e : Fin 1024 → EReal) (w b : EReal) (h : Fin 1024) : EReal :=
  (e h - mean e) * Ideal.rsqrt (var e + Ideal.ofBits .f32 0x3727C5AC#32) * w + b

/-- The same entry in the square-root-and-divide spelling. -/
def outDiv (e : Fin 1024 → EReal) (w b : EReal) (h : Fin 1024) : EReal :=
  Ideal.div (e h - mean e) (Ideal.sqrt (var e + Ideal.ofBits .f32 0x3727C5AC#32)) * w + b

/-- The two spellings are one function of the row. -/
theorem outMul_eq_outDiv (e : Fin 1024 → EReal) (w b : EReal) (h : Fin 1024) : outMul e w b h = outDiv e w b h := by
  unfold outMul outDiv
  rw [mul_rsqrt_eq_div_sqrt _ _ (var_add_eps_pos e)]

end Cert.RowNorm

end
-- ==== Proof.KernelBlock.lean ====
/-
  The kernel's block, entry by entry.

  At a grid point the body holds a block of 4 × 512 rows of the input, the matching 512 rows of the position
  table, the weight and the bias (each one row of 1024).  The generated value module reads what the body
  stores as the function `E4` of those four loads: pointwise operations around two row sums it keeps whole.
  Here both sums are read at a row (b, r): the first is the sum over k of input(b, r, k) + position(r, k), the
  second the sum of the squared deviations of those entries from their mean; so entry (b, r, h) of the
  stored block is the normalised row's entry h in the reciprocal-square-root spelling (`RowNorm.outMul`).
-/
import proofs.«160059_g1580547974938_cont_week2b_934_14_alg».proof.Proof.Gen.KernelIdeal.Value
import proofs.«160059_g1580547974938_cont_week2b_934_14_alg».proof.Proof.RowNorm
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Cert.KernelIdeal.Value Idealize.ShloMosaic Idealize.ShloMosaic.ValueIdx

/-- A row sum over the last axis of a 4 × 512 × 1024 vector, read at row (b, r). -/
theorem lane_sum (src : FVec Ideal S4x512x1024 .f32) (b : Fin 4) (r : Fin 512) :
    multiReduction .add [2] S4x512 src 0x00000000#32 reduces_S4x512x1024_S4x512 (.inl rfl) rfl (ix2 b r)
      = ∑ k : Fin 1024, src (ix3 b r k) := by
  refine (Ideal.multiReduction_add_single src 0x00000000#32 reduces_S4x512x1024_S4x512 (.inl rfl) rfl (ix2 b r)).trans ?_
  refine Finset.sum_congr rfl fun k _ => congrArg src ?_
  funext a; apply Fin.ext
  match a with
  | ⟨0, _⟩ => rfl
  | ⟨1, _⟩ => rfl
  | ⟨2, _⟩ => rfl

/-- The position rows laid under every batch entry: entry (b, r, k) is the position block's (r, k). -/
theorem pos_spread (v : FVec Ideal S512x1024 .f32) (b : Fin 4) (r : Fin 512) (k : Fin 1024) :
    broadcastTo S4x512x1024 (shapeCast S1x512x1024 v shapeCasts_S512x1024_S1x512x1024) broadcasts_S1x512x1024_S4x512x1024 (ix3 b r k)
      = v (ix2 r k) := by
  refine (broadcastTo_apply _ _ (ix3 b r k) (ix3 (0 : Fin 1) r k) (fun a => ?_)).trans ?_
  · match a with
    | ⟨0, _⟩ => show 0 = (if (1 : Nat) = 1 then 0 else b.val); rw [if_pos rfl]
    | ⟨1, _⟩ => show r.val = (if (512 : Nat) = 1 then 0 else r.val); rw [if_neg (by decide)]
    | ⟨2, _⟩ => show k.val = (if (1024 : Nat) = 1 then 0 else k.val); rw [if_neg (by decide)]
  · exact shapeCast_apply _ _ (ix3 (0 : Fin 1) r k) (ix2 r k)
      (by rw [Shape.rowMajor_val_two, Shape.rowMajor_val_three]; show r.val * 1024 + k.val = (0 * 512 + r.val) * 1024 + k.val; omega)

/-- A per-row value kept as a column, divided by a scalar and spread over the row: entry (b, r, k) is the
    row's value divided by the scalar. -/
theorem col_div_spread (u : FVec Ideal S4x512 .f32) (c : Ideal .f32) (b : Fin 4) (r : Fin 512) (k : Fin 1024) :
    broadcastTo S4x512x1024 (divf (shapeCast S4x512x1 u shapeCasts_S4x512_S4x512x1) (broadcast S4x512x1 c))
        broadcasts_S4x512x1_S4x512x1024 (ix3 b r k)
      = Ideal.div (u (ix2 b r)) c := by
  refine (broadcastTo_apply _ _ (ix3 b r k) (ix3 b r (0 : Fin 1)) (fun a => ?_)).trans ?_
  · match a with
    | ⟨0, _⟩ => show b.val = (if (4 : Nat) = 1 then 0 else b.val); rw [if_neg (by decide)]
    | ⟨1, _⟩ => show r.val = (if (512 : Nat) = 1 then 0 else r.val); rw [if_neg (by decide)]
    | ⟨2, _⟩ => show 0 = (if (1 : Nat) = 1 then 0 else k.val); rw [if_pos rfl]
  · show Ideal.div (shapeCast S4x512x1 u shapeCasts_S4x512_S4x512x1 (ix3 b r (0 : Fin 1))) c = _
    refine congrArg (fun z => Ideal.div z c) ?_
    exact shapeCast_apply _ _ (ix3 b r (0 : Fin 1)) (ix2 b r)
      (by rw [Shape.rowMajor_val_two, Shape.rowMajor_val_three]; show b.val * 512 + r.val = (b.val * 512 + r.val) * 1 + 0; omega)

variable (P0 : Vec Ideal S4x512x1024 .f32) (P1 : Vec Ideal S512x1024 .f32)

/-- Row (b, r) of the block of embeddings: input plus position, entry by entry. -/
def row (b : Fin 4) (r : Fin 512) : Fin 1024 → EReal := fun k => P0 (ix3 b r k) + P1 (ix2 r k)

/-- The block of embeddings as the body computes it. -/
abbrev emb : FVec Ideal S4x512x1024 .f32 :=
  addf P0 (broadcastTo S4x512x1024 (shapeCast S1x512x1024 P1 shapeCasts_S512x1024_S1x512x1024) broadcasts_S1x512x1024_S4x512x1024)

theorem emb_apply (b : Fin 4) (r : Fin 512) (k : Fin 1024) : emb P0 P1 (ix3 b r k) = row P0 P1 b r k := by
  show P0 (ix3 b r k) + _ = P0 (ix3 b r k) + P1 (ix2 r k)
  rw [pos_spread]

/-- The rows' sums. -/
abbrev sums : FVec Ideal S4x512 .f32 :=
  multiReduction .add [2] S4x512 (emb P0 P1) 0x00000000#32 reduces_S4x512x1024_S4x512 (.inl rfl) rfl

theorem sums_apply (b : Fin 4) (r : Fin 512) : sums P0 P1 (ix2 b r) = ∑ k, row P0 P1 b r k :=
  (lane_sum _ b r).trans (Finset.sum_congr rfl fun k _ => emb_apply P0 P1 b r k)

/-- The deviations from the rows' means. -/
abbrev dev : FVec Ideal S4x512x1024 .f32 :=
  subf (emb P0 P1) (broadcastTo S4x512x1024 (divf (shapeCast S4x512x1 (sums P0 P1) shapeCasts_S4x512_S4x512x1)
    (broadcast S4x512x1 (Scalar.ofBits .f32 0x44800000#32))) broadcasts_S4x512x1_S4x512x1024)

theorem dev_apply (b : Fin 4) (r : Fin 512) (k : Fin 1024) :
    dev P0 P1 (ix3 b r k) = row P0 P1 b r k - RowNorm.mean (row P0 P1 b r) := by
  show emb P0 P1 (ix3 b r k) - _ = _
  rw [emb_apply, col_div_spread, sums_apply]
  rfl

/-- The rows' sums of squared deviations. -/
abbrev sqsums : FVec Ideal S4x512 .f32 :=
  multiReduction .add [2] S4x512 (mulf (dev P0 P1) (dev P0 P1)) 0x00000000#32 reduces_S4x512x1024_S4x512 (.inl rfl) rfl

theorem sqsums_apply (b : Fin 4) (r : Fin 512) :
    sqsums P0 P1 (ix2 b r)
      = ∑ k, (row P0 P1 b r k - RowNorm.mean (row P0 P1 b r)) * (row P0 P1 b r k - RowNorm.mean (row P0 P1 b r)) :=
  (lane_sum _ b r).trans (Finset.sum_congr rfl fun k _ => by
    show dev P0 P1 (ix3 b r k) * dev P0 P1 (ix3 b r k) = _
    rw [dev_apply])

/-- Entry (b, r, h) of what the body stores is entry h of row (b, r) normalised, scaled by the weight's and
    shifted by the bias's entry h. -/
theorem entry (P2 P3 : Vec Ideal S1x1024 .f32) (b : Fin 4) (r : Fin 512) (h : Fin 1024) :
    E4 P0 P1 P2 P3 (ix3 b r h)
      = RowNorm.outMul (row P0 P1 b r) (P2 (ix2 (0 : Fin 1) h)) (P3 (ix2 (0 : Fin 1) h)) h := by
  have i0 : ix4_0 (ix3 b r h) = ix3 b r h := by
    funext a; apply Fin.ext
    match a with | ⟨0, _⟩ => rfl | ⟨1, _⟩ => rfl | ⟨2, _⟩ => rfl
  have i1 : ix4_1 (ix3 b r h) = ix2 r h := by
    funext a; apply Fin.ext
    match a with | ⟨0, _⟩ => rfl | ⟨1, _⟩ => rfl
  have i2 : ix4_2 (ix3 b r h) = ix2 b r := by
    funext a; apply Fin.ext
    match a with | ⟨0, _⟩ => rfl | ⟨1, _⟩ => rfl
  have i3 : ix4_3 (ix3 b r h) = ix2 b r := by
    funext a; apply Fin.ext
    match a with | ⟨0, _⟩ => rfl | ⟨1, _⟩ => rfl
  have i4 : ix4_4 (ix3 b r h) = ix2 (0 : Fin 1) h := by
    funext a; apply Fin.ext
    match a with | ⟨0, _⟩ => rfl | ⟨1, _⟩ => rfl
  have i5 : ix4_5 (ix3 b r h) = ix2 (0 : Fin 1) h := by
    funext a; apply Fin.ext
    match a with | ⟨0, _⟩ => rfl | ⟨1, _⟩ => rfl
  show (P0 (ix4_0 (ix3 b r h)) + P1 (ix4_1 (ix3 b r h))
        - Ideal.div (sums P0 P1 (ix4_2 (ix3 b r h))) (Ideal.ofBits .f32 0x44800000#32))
      * Ideal.rsqrt (Ideal.div (sqsums P0 P1 (ix4_3 (ix3 b r h))) (Ideal.ofBits .f32 0x44800000#32)
        + Ideal.ofBits .f32 0x3727C5AC#32)
      * P2 (ix4_4 (ix3 b r h)) + P3 (ix4_5 (ix3 b r h)) = _
  rw [i0, i1, i2, i3, i4, i5, sums_apply, sqsums_apply]
  rfl

end Cert.KernelIdeal.Block

end
-- ==== Proof.KernelArray.lean ====
/-
  From blocks to the whole array.

  The grid has 8 points; point t works on rows 512·t … 512·t + 511 of every batch entry.  Its input block is
  those rows of the input, its position block the same rows of the position table, and the weight and the
  bias (reshaped to one row of 1024 each before the launch) are staged whole at every point.  So what point t
  writes back is block t of ONE function of the four argument arrays: entry (b, s, h) is entry h of the
  normalised row (input(b, s, ·) + position(s, ·)), scaled by weight(h) and shifted by bias(h).  The 8
  output blocks cover the array, so the array ends holding that function.
-/
import proofs.«160059_g1580547974938_cont_week2b_934_14_alg».proof.Proof.KernelBlock
import Idealize.ShloMosaic.Lib.StableHlo.Run

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-- Entry (b, s, h) of the result as a function of the four argument arrays. -/
def G3 (x : FVec Ideal S4x4096x1024 .f32) (p : FVec Ideal S4096x1024 .f32) (w g : FVec Ideal S1024 .f32)
    (b : Fin 4) (s : Fin 4096) (h : Fin 1024) : EReal :=
  RowNorm.outMul (fun k => x (ix3 b s k) + p (ix2 s k)) (w (ix1 h)) (g (ix1 h)) h

/-- The result array. -/
def G (x : FVec Ideal S4x4096x1024 .f32) (p : FVec Ideal S4096x1024 .f32) (w g : FVec Ideal S1024 .f32) :
    FVec Ideal S4x4096x1024 .f32 :=
  fun i => G3 x p w g (i 0) (i 1) (i 2)

theorem outMul_congr {e e' : Fin 1024 → EReal} {w w' b b' : EReal} {h h' : Fin 1024}
    (he : e = e') (hw : w = w') (hb : b = b') (hh : h = h') : RowNorm.outMul e w b h = RowNorm.outMul e' w' b' h' := by
  subst he hw hb hh; rfl

variable (m : (ℓ : Loc nD τ sig) → Buf (Elt Ideal) ℓ) (ρ : Dev nD → PrngReg)

/-- The four input blocks at a point, at their literal shapes. -/
abbrev xblk (c : Dev nD) (t : Fin cfg0.N) : Vec Ideal S4x512x1024 .f32 := iblk m c 0 t
abbrev pblk (c : Dev nD) (t : Fin cfg0.N) : Vec Ideal S512x1024 .f32 := iblk m c 1 t
abbrev wblk (c : Dev nD) (t : Fin cfg0.N) : Vec Ideal S1x1024 .f32 := iblk m c 2 t
abbrev gblk (c : Dev nD) (t : Fin cfg0.N) : Vec Ideal S1x1024 .f32 := iblk m c 3 t

/-- The weight and the bias as the region finds them: each argument reshaped to one row. -/
theorem weight_row (c : Dev nD) :
    (V m c main_call0_v0 : S1x1024.Idx → EReal) = shapeCast S1x1024 (m ((c : Thread nD τ).loc main_arg2)) shapeCasts_S1024_S1x1024 := by
  dsimp only [Gen.V, Gen.hostOps0]; after_results; rfl

theorem bias_row (c : Dev nD) :
    (V m c main_call0_v1 : S1x1024.Idx → EReal) = shapeCast S1x1024 (m ((c : Thread nD τ).loc main_arg3)) shapeCasts_S1024_S1x1024 := by
  dsimp only [Gen.V, Gen.hostOps0]; after_results; rfl

/-- One row of 1024 read at (0, h) is the vector's entry h. -/
theorem row_cast (v : FVec Ideal S1024 .f32) (h : Fin 1024) :
    shapeCast S1x1024 v shapeCasts_S1024_S1x1024 (ix2 (0 : Fin 1) h) = v (ix1 h) :=
  shapeCast_apply _ _ (ix2 (0 : Fin 1) h) (ix1 h)
    (by rw [Shape.rowMajor_val_one, Shape.rowMajor_val_two]; show h.val = 0 * 1024 + h.val; omega)

theorem hz3 : (![0, 0, 0] : Fin 3 → Nat) = fun _ => 0 := funext fun a => by fin_cases a <;> rfl
theorem hz2 : (![0, 0] : Fin 2 → Nat) = fun _ => 0 := funext fun a => by fin_cases a <;> rfl

/-- What the body stores, from its four loads: entry (b, r, h). -/
theorem stored (x0 : Vec Ideal S4x512x1024 .f32) (x1 : Vec Ideal S512x1024 .f32) (x2 x3 : Vec Ideal S1x1024 .f32)
    (b : Fin 4) (r : Fin 512) (h : Fin 1024) :
    out0_4 x0 x1 x2 x3 (ix3 b r h)
      = RowNorm.outMul (Block.row x0 x1 b r) (x2 (ix2 (0 : Fin 1) h)) (x3 (ix2 (0 : Fin 1) h)) h := by
  unfold out0_4
  rw [canon4_eq]
  simp only [View.ld_unit_zero (S := S4x512x1024) hz3, View.ld_unit_zero (S := S512x1024) hz2,
    View.ld_unit_zero (S := S1x1024) hz2]
  exact Block.entry x0 x1 x2 x3 b r h

/-- The printed index maps over the 8 grid points: the input and the output blocks move together along the
    rows, the position block with them, the weight and the bias stay. -/
theorem idx_facts : ∀ t : Fin cfg0.N,
    win0_4.index t (0 : Fin 3) = 0 ∧ win0_4.index t (2 : Fin 3) = 0 ∧ win0_4.index t (1 : Fin 3) ≤ 7
    ∧ win0_0.index t (0 : Fin 3) = 0 ∧ win0_0.index t (1 : Fin 3) = win0_4.index t (1 : Fin 3) ∧ win0_0.index t (2 : Fin 3) = 0
    ∧ win0_1.index t (0 : Fin 2) = win0_4.index t (1 : Fin 3) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Every block of rows is some point's. -/
theorem idx_onto : ∀ q : Fin 8, ∃ t : Fin cfg0.N, win0_4.index t = ![0, q.val, 0] :=
  (by decide +kernel : ∀ q : Fin 8, ∃ t : Fin grid0.N, win0_4.index t = ![0, q.val, 0])

/-- The array row under row r of point t's blocks. -/
def arow (t : Fin cfg0.N) (r : Fin 512) : Fin 4096 :=
  ⟨win0_4.index t (1 : Fin 3) * 512 + r.val, by have := (idx_facts t).2.2.1; have := r.isLt; omega⟩

/-- The output block's entry (b, r, h) lies at (b, arow t r, h) of the array. -/
theorem out_emb (t : Fin cfg0.N) (b : Fin 4) (r : Fin 512) (h : Fin 1024) :
    ((cfg0.win 4).blk t).view.emb (ix3 b r h) = ix3 b (arow t r) h := by
  obtain ⟨e0, e1, -⟩ := idx_facts t
  funext a; apply Fin.ext
  match a with
  | ⟨0, _⟩ => show win0_4.index t (0 : Fin 3) * 4 + 1 * b.val = b.val; omega
  | ⟨1, _⟩ => show win0_4.index t (1 : Fin 3) * 512 + 1 * r.val = win0_4.index t (1 : Fin 3) * 512 + r.val; omega
  | ⟨2, _⟩ => show win0_4.index t (2 : Fin 3) * 1024 + 1 * h.val = h.val; omega

/-- The input block's entry (b, r, k) is the input at (b, arow t r, k). -/
theorem xblk_apply (c : Dev nD) (t : Fin cfg0.N) (b : Fin 4) (r : Fin 512) (k : Fin 1024) :
    xblk m c t (ix3 b r k) = m ((c : Thread nD τ).loc main_arg0) (ix3 b (arow t r) k) := by
  obtain ⟨-, -, -, e3, e4, e5, -⟩ := idx_facts t
  show V m c main_arg0 (((cfg0.win 0).blk t).view.emb (ix3 b r k)) = _
  rw [V_main_arg0]
  refine congrArg _ ?_
  funext a; apply Fin.ext
  match a with
  | ⟨0, _⟩ => show win0_0.index t (0 : Fin 3) * 4 + 1 * b.val = b.val; omega
  | ⟨1, _⟩ => show win0_0.index t (1 : Fin 3) * 512 + 1 * r.val = win0_4.index t (1 : Fin 3) * 512 + r.val; omega
  | ⟨2, _⟩ => show win0_0.index t (2 : Fin 3) * 1024 + 1 * k.val = k.val; omega

/-- The position block's entry (r, k) is the table at (arow t r, k). -/
theorem pblk_apply (c : Dev nD) (t : Fin cfg0.N) (r : Fin 512) (k : Fin 1024) :
    pblk m c t (ix2 r k) = m ((c : Thread nD τ).loc main_arg1) (ix2 (arow t r) k) := by
  obtain ⟨-, -, -, -, -, -, e6, e7, -⟩ := idx_facts t
  show V m c main_arg1 (((cfg0.win 1).blk t).view.emb (ix2 r k)) = _
  rw [V_main_arg1]
  refine congrArg _ ?_
  funext a; apply Fin.ext
  match a with
  | ⟨0, _⟩ => show win0_1.index t (0 : Fin 2) * 512 + 1 * r.val = win0_4.index t (1 : Fin 3) * 512 + r.val; omega
  | ⟨1, _⟩ => show win0_1.index t (1 : Fin 2) * 1024 + 1 * k.val = k.val; omega

/-- The weight block's entry (0, h) is the weight's entry h; the bias likewise. -/
theorem wblk_apply (c : Dev nD) (t : Fin cfg0.N) (h : Fin 1024) :
    wblk m c t (ix2 (0 : Fin 1) h) = m ((c : Thread nD τ).loc main_arg2) (ix1 h) := by
  obtain ⟨-, -, -, -, -, -, -, -, e8, e9, -⟩ := idx_facts t
  show V m c main_call0_v0 (((cfg0.win 2).blk t).view.emb (ix2 (0 : Fin 1) h)) = _
  have e : ((cfg0.win 2).blk t).view.emb (ix2 (0 : Fin 1) h) = ix2 (0 : Fin 1) h := by
    funext a; apply Fin.ext
    match a with
    | ⟨0, _⟩ => show win0_2.index t (0 : Fin 2) * 1 + 1 * 0 = 0; omega
    | ⟨1, _⟩ => show win0_2.index t (1 : Fin 2) * 1024 + 1 * h.val = h.val; omega
  rw [e, weight_row, row_cast]

theorem gblk_apply (c : Dev nD) (t : Fin cfg0.N) (h : Fin 1024) :
    gblk m c t (ix2 (0 : Fin 1) h) = m ((c : Thread nD τ).loc main_arg3) (ix1 h) := by
  obtain ⟨-, -, -, -, -, -, -, -, -, -, e10, e11⟩ := idx_facts t
  show V m c main_call0_v1 (((cfg0.win 3).blk t).view.emb (ix2 (0 : Fin 1) h)) = _
  have e : ((cfg0.win 3).blk t).view.emb (ix2 (0 : Fin 1) h) = ix2 (0 : Fin 1) h := by
    funext a; apply Fin.ext
    match a with
    | ⟨0, _⟩ => show win0_3.index t (0 : Fin 2) * 1 + 1 * 0 = 0; omega
    | ⟨1, _⟩ => show win0_3.index t (1 : Fin 2) * 1024 + 1 * h.val = h.val; omega
  rw [e, bias_row, row_cast]

/-- The result as a function of the launch memory. -/
abbrev Garr (c : Dev nD) : FVec Ideal S4x4096x1024 .f32 :=
  G (m ((c : Thread nD τ).loc main_arg0)) (m ((c : Thread nD τ).loc main_arg1))
    (m ((c : Thread nD τ).loc main_arg2)) (m ((c : Thread nD τ).loc main_arg3))

/-- What point t stores at (b, r, h) is the result array's entry under it. -/
theorem stored_eq (c : Dev nD) (t : Fin cfg0.N) (b : Fin 4) (r : Fin 512) (h : Fin 1024) :
    out0_4 (xblk m c t) (pblk m c t) (wblk m c t) (gblk m c t) (ix3 b r h)
      = Garr m c (((cfg0.win 4).blk t).view.emb (ix3 b r h)) := by
  rw [stored, out_emb]
  show _ = G3 _ _ _ _ b (arow t r) h
  unfold G3
  refine outMul_congr (funext fun k => ?_) (wblk_apply m c t h) (gblk_apply m c t h) rfl
  show xblk m c t (ix3 b r k) + pblk m c t (ix2 r k) = _
  rw [xblk_apply, pblk_apply]

/-- WHAT POINT t WRITES BACK is block t of the result array. -/
theorem flushed_eq (c : Dev nD) (t : Fin cfg0.N) :
    (dats m 0 c).flushed 4 t = ((cfg0.win 4).blk t).view.read (Elt Ideal) (Garr m c) := by
  rw [Value.flushed4]
  funext j
  have hj : (j : S4x512x1024.Idx) = ix3 (j 0) (j 1) (j 2) := eq_ix3 (n0 := 4) (n1 := 512) (n2 := 1024) j
  show out0_4 (xblk m c t) (pblk m c t) (wblk m c t) (gblk m c t) j = Garr m c (((cfg0.win 4).blk t).view.emb j)
  rw [hj]
  exact stored_eq m c t (j 0) (j 1) (j 2)

/-- An index of the array is in point t's output block iff each coordinate is in the block's range. -/
theorem mem_blk (t : Fin cfg0.N) (i : S4x4096x1024.Idx) :
    i ∈ ((cfg0.win 4).blk t).view.set ↔ ∀ a : Fin 3, win0_4.index t a * S4x512x1024.size a ≤ (i a).val ∧ (i a).val < win0_4.index t a * S4x512x1024.size a + S4x512x1024.size a := by
  show i ∈ ((View.whole main_v0).slice (win0_4.rect t)).set ↔ _
  rw [View.set_slice_whole, Rect.mem_set_unit]
  exact Iff.rfl

/-- The 8 output blocks cover the array. -/
theorem cover (i : S4x4096x1024.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 1024 := (i 2).isLt
  obtain ⟨t, ht⟩ := idx_onto ⟨(i 1).val / 512, by omega⟩
  have q0 : win0_4.index t (0 : Fin 3) = 0 := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- THE ARRAY after the run is the result array. -/
theorem final (c : Dev nD) : (dats m 0 c).arrAt 4 cfg0.N = Garr m c :=
  (dats m 0 c).arrAt_eq_of_cover 4 (Garr m c) (fun t _ => flushed_eq m c t) cover

/-- The kernel's run: the output ends at the result array of the launch memory, the arguments unchanged. -/
theorem run : θ_run defs (onTc (τ := τ) (main (F := Ideal))) ⟨m, fun _ => 0, ρ⟩ fun r => ∀ c : Dev nD,
      r.2.mem ((c : Thread nD τ).loc main_v0) = Garr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefTerm.lean ====
/-
  The reference's result as ONE term of its four argument arrays.

  The reference adds to the input the rows of the position table taken at the positions 0, 1, …, 4095
  (the same row index for every batch entry), then normalises every row of 1024 entries: it subtracts
  the row's mean, divides by the square root of the row's variance plus a small constant, scales by the
  weight and shifts by the bias, both indexed by the position inside the row.

  The take is the library operation jnp spells: an index below zero is wrapped once by the table's length,
  the row is gathered at the (clamped) index, and where the wrapped index is outside [0, 4095] a fill
  value is selected instead of the gathered row.  `takeOut` is that term for any table and any index array;
  `posIds` is the index array the reference builds.
-/
import proofs.«160059_g1580547974938_cont_week2b_934_14_alg».proof.Proof.Gen.ReferenceIdeal
import Idealize.ShloMosaic.Lib.ValueIdx

noncomputable section

namespace Cert.ReferenceIdeal.Term

open Cert.ReferenceIdeal Cert.ReferenceIdeal.Gen Idealize.ShloMosaic Idealize.ShloMosaic.TcCoe Idealize.SL.Sem

variable {F : FTy → Type} [FloatOps F]

/-- The positions: entry (b, s) holds the word s. -/
def posIds : IVec S4x4096 32 :=
  broadcastInDim S4x4096 ![0, 1] bcast_S1x4096_S4x4096_0_1
    (broadcastInDim S1x4096 ![1] bcast_S4096_S1x4096_1 (iotaInDim S4096 32 0))

/-- An index below zero is wrapped once by the table's length 4096; the result is kept as a column. -/
def wrapIds (ids : IVec S4x4096 32) : IVec S4x4096x1 32 :=
  broadcastInDim S4x4096x1 ![0, 1] bcast_S4x4096_S4x4096x1_0_1
    (select (cmpi .slt ids (broadcastInDim S4x4096 ![] bcast_S_S4x4096 (constantI S_ 32 0#32)))
      (addi ids (broadcastInDim S4x4096 ![] bcast_S_S4x4096 (constantI S_ 32 4096#32))) ids)

/-- The mask of the entries whose wrapped index lies in [0, 4095], spread over the rows' 1024 entries. -/
def inRange (v : IVec S4x4096x1 32) : IVec S4x4096x1024 1 :=
  broadcastInDim S4x4096x1024 ![0, 1] bcast_S4x4096_S4x4096x1024_0_1
    (Host.reduce IntOp.andi
      (andi (cmpi .sge v (broadcastInDim S4x4096x1 ![] bcast_S_S4x4096x1 (constantI S_ 32 0#32)))
        (cmpi .sle v (broadcastInDim S4x4096x1 ![0, 1, 2] bcast_S1x1x1_S4x4096x1_0_1_2
          (broadcastInDim S1x1x1 ![2] bcast_S1_S1x1x1_2 (constantI S1 32 4095#32)))))
      (constantI S_ 1 1#1) reducesTo_S4x4096x1_S4x4096_d2 h_S_)

/-- The take: the gathered rows where the wrapped index is in range, the fill value elsewhere. -/
def takeOut (tbl : FVec F S4096x1024 .f32) (ids : IVec S4x4096 32) : FVec F S4x4096x1024 .f32 :=
  select (inRange (wrapIds ids))
    (Host.gather gather_S4096x1024_S4x4096x1_S4x4096x1024_2_0_n_n_0_2_11024 tbl (wrapIds ids))
    (broadcastInDim S4x4096x1024 ![] bcast_S_S4x4096x1024 (constant S_ .f32 0x7FC00000#32))

/-- A row's sum from zero, divided by 1024, kept as a column: the row's mean. -/
def rowMean (e : FVec F S4x4096x1024 .f32) : FVec F S4x4096x1 .f32 :=
  Host.divf
    (broadcastInDim S4x4096x1 ![0, 1] bcast_S4x4096_S4x4096x1_0_1
      (Host.reduceAdd e (constant S_ .f32 0x00000000#32) reducesTo_S4x4096x1024_S4x4096_d2 h_S_))
    (broadcastInDim S4x4096x1 ![] bcast_S_S4x4096x1 (constant S_ .f32 0x44800000#32))

/-- A column spread back over the rows' 1024 entries. -/
def spread (v : FVec F S4x4096x1 .f32) : FVec F S4x4096x1024 .f32 :=
  broadcastInDim S4x4096x1024 ![0, 1, 2] bcast_S4x4096x1_S4x4096x1024_0_1_2 v

/-- A vector of 1024 entries laid along every row. -/
def alongRows (w : FVec F S1024 .f32) : FVec F S4x4096x1024 .f32 :=
  broadcastInDim S4x4096x1024 ![0, 1, 2] bcast_S1x1x1024_S4x4096x1024_0_1_2
    (broadcastInDim S1x1x1024 ![2] bcast_S1024_S1x1x1024_2 w)

/-- The row normalisation: centre, divide by the square root of variance plus the small constant, scale, shift. -/
def lnOut (e : FVec F S4x4096x1024 .f32) (w b : FVec F S1024 .f32) : FVec F S4x4096x1024 .f32 :=
  addf
    (mulf
      (Host.divf (subf e (spread (rowMean e)))
        (spread (Host.sqrt (addf (rowMean (mulf (subf e (spread (rowMean e))) (subf e (spread (rowMean e)))))
          (broadcastInDim S4x4096x1 ![] bcast_S_S4x4096x1 (constant S_ .f32 0x3727C5AC#32))))))
      (alongRows w))
    (alongRows b)

/-- The reference's result. -/
def refOut (x : FVec F S4x4096x1024 .f32) (p : FVec F S4096x1024 .f32) (w b : FVec F S1024 .f32) :
    FVec F S4x4096x1024 .f32 :=
  lnOut (addf x (takeOut p posIds)) w b

end Cert.ReferenceIdeal.Term

end
-- ==== Proof.RefRun.lean ====
/-
  The reference program's run, read back at its result and its arguments.

  The program is a straight line of 56 whole-array operations: three that build the array of positions,
  the take (the comparison with zero, the wrap by the table's length, the selection between the two, the
  range test reduced along the last axis, the gather and the final selection against the fill value), the
  addition of the taken rows to the input, and the row normalisation (mean, centred square, its mean, the
  square root, the division, the scale and the shift).  Every execution ends with each array at the
  composition of these functions over the arguments' contents at the start, and that composition at the
  result array is the term `refOut`; the arguments are written by no operation.
-/
import proofs.«160059_g1580547974938_cont_week2b_934_14_alg».proof.Proof.RefTerm
import Idealize.ShloMosaic.Lib.StableHlo.Run

noncomputable section

namespace Cert.ReferenceIdeal.Run

open Cert.ReferenceIdeal Cert.ReferenceIdeal.Gen Cert.ReferenceIdeal.Term Idealize.ShloMosaic Idealize.ShloMosaic.TcCoe Idealize.SL.Sem Idealize.ShloMosaic.StableHlo

variable {F : FTy → Type} [FloatOps F]

/-- The program's operations in order, the two called functions' operations written where they are called,
    over the arrays the call names. -/
abbrev ops : List (HloOp τ sig (Elt F)) :=
  [ nullary main_v0 (iotaInDim S4096 32 0),
    unary main_v0 main_v1 (broadcastInDim S1x4096 ![1] bcast_S4096_S1x4096_1 : (⟨S4096, .i32⟩ : BufTy).Contents (Elt F) → (⟨S1x4096, .i32⟩ : BufTy).Contents (Elt F)),
    unary main_v1 main_v2 (broadcastInDim S4x4096 ![0, 1] bcast_S1x4096_S4x4096_0_1 : (⟨S1x4096, .i32⟩ : BufTy).Contents (Elt F) → (⟨S4x4096, .i32⟩ : BufTy).Contents (Elt F)),
    TRef.nullary main_call0.c (constantI S_ 32 0#32),
    TRef.unary main_call0.c main_call0.v0 (broadcastInDim S4x4096 ![] bcast_S_S4x4096),
    TRef.binary (.of main_v2) main_call0.v0 main_call0.v1 (cmpi .slt),
    TRef.nullary main_call0.c_0 (constantI S_ 32 4096#32),
    TRef.unary main_call0.c_0 main_call0.v2 (broadcastInDim S4x4096 ![] bcast_S_S4x4096),
    TRef.binary (.of main_v2) main_call0.v2 main_call0.v3 addi,
    TRef.ternary main_call0.v1 main_call0.v3 (.of main_v2) main_call0.call0.v0 select,
    TRef.unary main_call0.call0.v0 main_call0.v5 (broadcastInDim S4x4096x1 ![0, 1] bcast_S4x4096_S4x4096x1_0_1),
    TRef.nullary main_call0.c_1 (constantI S1 32 4095#32),
    TRef.nullary main_call0.c_2 (constantI S_ 32 0#32),
    TRef.unary main_call0.c_2 main_call0.v6 (broadcastInDim S4x4096x1 ![] bcast_S_S4x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x4096x1 ![0, 1, 2] bcast_S1x1x1_S4x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x4096x1_S4x4096_d2 h_S_),
    TRef.binary (.of main_arg1) main_call0.v5 main_call0.v13 (fun x i => Host.gather gather_S4096x1024_S4x4096x1_S4x4096x1024_2_0_n_n_0_2_11024 x i),
    TRef.unary main_call0.v12 main_call0.v14 (broadcastInDim S4x4096x1024 ![0, 1] bcast_S4x4096_S4x4096x1024_0_1),
    TRef.nullary main_call0.cst (constant S_ .f32 0x7FC00000#32),
    TRef.unary main_call0.cst main_call0.v15 (broadcastInDim S4x4096x1024 ![] bcast_S_S4x4096x1024),
    TRef.ternary main_call0.v14 main_call0.v13 main_call0.v15 main_call0.v16 select,
    binary main_arg0 main_v3 main_v4 (addf : (⟨S4x4096x1024, .f32⟩ : BufTy).Contents (Elt F) → (⟨S4x4096x1024, .f32⟩ : BufTy).Contents (Elt F) → (⟨S4x4096x1024, .f32⟩ : BufTy).Contents (Elt F)),
    nullary main_cst (constant S_ .f32 0x00000000#32),
    binary main_v4 main_cst main_v5 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v5 main_v6 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_0 (constant S_ .f32 0x44800000#32),
    unary main_cst_0 main_v7 (broadcastInDim S4x4096x1 ![] bcast_S_S4x4096x1 : (⟨S_, .f32⟩ : BufTy).Contents (Elt F) → (⟨S4x4096x1, .f32⟩ : BufTy).Contents (Elt F)),
    binary main_v6 main_v7 main_v8 (Host.divf : (⟨S4x4096x1, .f32⟩ : BufTy).Contents (Elt F) → (⟨S4x4096x1, .f32⟩ : BufTy).Contents (Elt F) → (⟨S4x4096x1, .f32⟩ : BufTy).Contents (Elt F)),
    unary main_v8 main_v9 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v4 main_v9 main_v10 (subf : (⟨S4x4096x1024, .f32⟩ : BufTy).Contents (Elt F) → (⟨S4x4096x1024, .f32⟩ : BufTy).Contents (Elt F) → (⟨S4x4096x1024, .f32⟩ : BufTy).Contents (Elt F)),
    binary main_v10 main_v10 main_v11 (mulf : (⟨S4x4096x1024, .f32⟩ : BufTy).Contents (Elt F) → (⟨S4x4096x1024, .f32⟩ : BufTy).Contents (Elt F) → (⟨S4x4096x1024, .f32⟩ : BufTy).Contents (Elt F)),
    nullary main_cst_1 (constant S_ .f32 0x00000000#32),
    binary main_v11 main_cst_1 main_v12 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v12 main_v13 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_2 (constant S_ .f32 0x44800000#32),
    unary main_cst_2 main_v14 (broadcastInDim S4x4096x1 ![] bcast_S_S4x4096x1 : (⟨S_, .f32⟩ : BufTy).Contents (Elt F) → (⟨S4x4096x1, .f32⟩ : BufTy).Contents (Elt F)),
    binary main_v13 main_v14 main_v15 (Host.divf : (⟨S4x4096x1, .f32⟩ : BufTy).Contents (Elt F) → (⟨S4x4096x1, .f32⟩ : BufTy).Contents (Elt F) → (⟨S4x4096x1, .f32⟩ : BufTy).Contents (Elt F)),
    unary main_v8 main_v16 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v4 main_v16 main_v17 (subf : (⟨S4x4096x1024, .f32⟩ : BufTy).Contents (Elt F) → (⟨S4x4096x1024, .f32⟩ : BufTy).Contents (Elt F) → (⟨S4x4096x1024, .f32⟩ : BufTy).Contents (Elt F)),
    nullary main_cst_3 (constant S_ .f32 0x3727C5AC#32),
    unary main_cst_3 main_v18 (broadcastInDim S4x4096x1 ![] bcast_S_S4x4096x1 : (⟨S_, .f32⟩ : BufTy).Contents (Elt F) → (⟨S4x4096x1, .f32⟩ : BufTy).Contents (Elt F)),
    binary main_v15 main_v18 main_v19 (addf : (⟨S4x4096x1, .f32⟩ : BufTy).Contents (Elt F) → (⟨S4x4096x1, .f32⟩ : BufTy).Contents (Elt F) → (⟨S4x4096x1, .f32⟩ : BufTy).Contents (Elt F)),
    unary main_v19 main_v20 (Host.sqrt : (⟨S4x4096x1, .f32⟩ : BufTy).Contents (Elt F) → (⟨S4x4096x1, .f32⟩ : BufTy).Contents (Elt F)),
    unary main_v20 main_v21 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v17 main_v21 main_v22 (Host.divf : (⟨S4x4096x1024, .f32⟩ : BufTy).Contents (Elt F) → (⟨S4x4096x1024, .f32⟩ : BufTy).Contents (Elt F) → (⟨S4x4096x1024, .f32⟩ : BufTy).Contents (Elt F)),
    unary main_arg2 main_v23 (broadcastInDim S1x1x1024 ![2] bcast_S1024_S1x1x1024_2 : (⟨S1024, .f32⟩ : BufTy).Contents (Elt F) → (⟨S1x1x1024, .f32⟩ : BufTy).Contents (Elt F)),
    unary main_v23 main_v24 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v22 main_v24 main_v25 (mulf : (⟨S4x4096x1024, .f32⟩ : BufTy).Contents (Elt F) → (⟨S4x4096x1024, .f32⟩ : BufTy).Contents (Elt F) → (⟨S4x4096x1024, .f32⟩ : BufTy).Contents (Elt F)),
    unary main_arg3 main_v26 (broadcastInDim S1x1x1024 ![2] bcast_S1024_S1x1x1024_2 : (⟨S1024, .f32⟩ : BufTy).Contents (Elt F) → (⟨S1x1x1024, .f32⟩ : BufTy).Contents (Elt F)),
    unary main_v26 main_v27 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v25 main_v27 main_v28 (addf : (⟨S4x4096x1024, .f32⟩ : BufTy).Contents (Elt F) → (⟨S4x4096x1024, .f32⟩ : BufTy).Contents (Elt F) → (⟨S4x4096x1024, .f32⟩ : BufTy).Contents (Elt F)) ]

-- one re-association per operation of the chain
set_option maxRecDepth 1024 in
/-- The program is that straight line: the called functions unfolded where they are called and the
    sequencing re-associated, both sides are one chain of the same steps. -/
theorem main_eq (c : Dev nD) : main (F := F) c = seq ops := by
  simp only [main, fn_take.body, fn_where.body, seq, bind_assoc, pure_bind]

attribute [local irreducible] Host.reduce Host.gather Host.reduceAdd in
set_option maxRecDepth 8192 in
set_option maxHeartbeats 1000000 in
/-- The composition at the result array is `refOut`: the fold unrolled, each operation's result at its own
    array is its function's value and at any other array what was there; the transports of the called
    functions' values along equal array types are identities; what is left is the same composition of the
    same functions.  The reductions and the gather stay folded meanwhile: the equation never looks inside them. -/
theorem out_eq (V : Valuation τ sig (Elt F)) :
    after ops V (main_v28 : DevRef τ sig)
      = refOut (V (main_arg0 : DevRef τ sig)) (V (main_arg1 : DevRef τ sig)) (V (main_arg2 : DevRef τ sig))
          (V (main_arg3 : DevRef τ sig)) := by
  after_results_simp
  simp only [TRef.toBuf, TRef.ofBuf, cast_eq]
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., binary_bufs_sub .., nullary_bufs_sub .., binary_bufs_sub .., unary_bufs_sub ..,
    nullary_bufs_sub .., unary_bufs_sub .., binary_bufs_sub .., unary_bufs_sub .., binary_bufs_sub .., binary_bufs_sub ..,
    nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

/-- Every execution of the program terminates with each array at the operations' composition over the
    contents at the start. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The run read at the result and at the four arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c main_v28).trans (out_eq _), (h c main_arg0).trans (arg0_eq _), (h c main_arg1).trans (arg1_eq _),
      (h c main_arg2).trans (arg2_eq _), (h c main_arg3).trans (arg3_eq _)⟩)
    (run_main m ρ)

end Cert.ReferenceIdeal.Run

end
-- ==== Proof.TakeAtPositions.lean ====
/-
  The take at the positions 0, 1, …, 4095 reads the table's own rows.

  The positions array holds the word s at (b, s): an iota along the rows, broadcast over the batch. Since
  s < 4096 < 2^31, the signed comparison "s < 0" is false, so the wrap by the table's length keeps s, and the
  wrapped index column holds s at (b, s, 0). Signed, 0 ≤ s and s ≤ 4095, so the and-reduction over the
  column's one-element axis, from 1, is 1, and the mask spread over the rows' 1024 entries is 1 at (b, s, h):
  the outer select takes the gathered value. The gather has one collapsed operand axis (the rows), start-indexed
  by the column, and one offset axis (the row's 1024 entries): at (b, s, h) it reads the table at row
  min (the index read signed) 4095 and column h, and here that row is s.
-/
import proofs.«160059_g1580547974938_cont_week2b_934_14_alg».proof.Proof.RefTerm
import Idealize.ShloMosaic.Lib.StableHlo.Predicate
import Idealize.ShloMosaic.Lib.ValueIdx

noncomputable section

namespace Cert.ReferenceIdeal.TakeAt

open Cert.ReferenceIdeal Cert.ReferenceIdeal.Gen Cert.ReferenceIdeal.Term Idealize.ShloMosaic Idealize.ShloMosaic.ValueIdx
open Idealize.ShloMosaic.StableHlo.Predicate

variable {F : FTy → Type} [FloatOps F]

/-- The positions array holds the word s at (b, s). -/
theorem posIds_apply (b : Fin 4) (s : Fin 4096) : posIds (ix2 b s) = BitVec.ofNat 32 s.val := by
  rfl

/-- A rank-2 array kept as a column reads, at (b, s, c), the array at (b, s). -/
theorem col_apply {α : Type} (v : S4x4096.Idx → α) (b : Fin 4) (s : Fin 4096) (c : Fin 1) :
    broadcastInDim S4x4096x1 ![0, 1] bcast_S4x4096_S4x4096x1_0_1 v (ix3 b s c) = v (ix2 b s) := by
  simp only [broadcastInDim]
  congr 1
  funext a
  match a with
  | ⟨0, _⟩ => rfl
  | ⟨1, _⟩ => rfl

/-- A rank-2 array spread over the rows' entries reads, at (b, s, h), the array at (b, s). -/
theorem spread2_apply {α : Type} (v : S4x4096.Idx → α) (b : Fin 4) (s : Fin 4096) (h : Fin 1024) :
    broadcastInDim S4x4096x1024 ![0, 1] bcast_S4x4096_S4x4096x1024_0_1 v (ix3 b s h) = v (ix2 b s) := by
  simp only [broadcastInDim]
  congr 1
  funext a
  match a with
  | ⟨0, _⟩ => rfl
  | ⟨1, _⟩ => rfl

/-- Below 2^31 the word s is not negative, so the wrap keeps it: the wrapped index column holds s at (b, s, 0). -/
theorem wrapIds_posIds (b : Fin 4) (s : Fin 4096) (c : Fin 1) :
    wrapIds posIds (ix3 b s c) = BitVec.ofNat 32 s.val := by
  unfold wrapIds
  rw [col_apply, select_apply]
  have hs := s.isLt
  have hlt : (BitVec.ofNat 32 s.val).toNat < 2 ^ 31 := by
    simp only [BitVec.toNat_ofNat]; omega
  have hc : cmpi .slt posIds (broadcastInDim S4x4096 ![] bcast_S_S4x4096 (constantI S_ 32 0#32)) (ix2 b s) = 0#1 := by
    apply eq_zero_of_ne_one
    show ¬ IntOp.cmpi .slt (posIds (ix2 b s)) 0#32 = 1#1
    rw [posIds_apply, slt_iff_toNat hlt (by decide)]
    simp
  rw [hc, select_zero, posIds_apply]

/-- A left fold by `and` from 1 over words that are all 1 is 1. -/
theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_one f hf l

/-- The wrapped index s lies in [0, 4095], so the mask is 1 at (b, s, h). -/
theorem inRange_wrapIds_posIds (b : Fin 4) (s : Fin 4096) (h : Fin 1024) :
    inRange (wrapIds posIds) (ix3 b s h) = 1#1 := by
  unfold inRange
  rw [spread2_apply, Host.reduce_eq_foldl]
  show List.foldl (fun r i => IntOp.andi r _) 1#1 _ = 1#1
  apply foldl_andi_one
  intro i
  obtain ⟨a, c, d, rfl⟩ : ∃ (a : Fin 4) (c : Fin 4096) (d : Fin 1), i = ix3 a c d := ⟨i 0, i 1, i 2, eq_ix3 i⟩
  have hs := c.isLt
  have hlt : (BitVec.ofNat 32 c.val).toNat < 2 ^ 31 := by
    simp only [BitVec.toNat_ofNat]; omega
  show IntOp.andi (IntOp.cmpi .sge (wrapIds posIds (ix3 a c d)) 0#32)
      (IntOp.cmpi .sle (wrapIds posIds (ix3 a c d)) 4095#32) = 1#1
  rw [wrapIds_posIds]
  have h1 : IntOp.cmpi .sge (BitVec.ofNat 32 c.val) 0#32 = 1#1 :=
    (sge_iff_toNat hlt (by decide)).2 (by simp)
  have h2 : IntOp.cmpi .sle (BitVec.ofNat 32 c.val) 4095#32 = 1#1 :=
    (sle_iff_toNat hlt (by decide)).2 (by simp only [BitVec.toNat_ofNat]; omega)
  rw [h1, h2]; rfl

local notation "gd" => gather_S4096x1024_S4x4096x1_S4x4096x1024_2_0_n_n_0_2_11024

/-- The gather at (b, s, h) reads the table at the row its start index names, clamped into the table, and column h. -/
theorem gather_apply (tbl : FVec F S4096x1024 .f32) (idx : IVec S4x4096x1 32) (b : Fin 4) (s : Fin 4096) (h : Fin 1024) :
    Host.gather gd tbl idx (ix3 b s h)
      = tbl (ix2 ⟨min (idx (ix3 b s 0)).toInt.toNat (4096 - 1), by omega⟩ h) := by
  unfold Host.gather
  congr 1
  funext a
  match a with
  | ⟨0, _⟩ =>
    apply Fin.ext
    show GatherDims.start gd (ix3 b s h) idx 0 + GatherDims.batchCoord gd (ix3 b s h) 0
      + GatherDims.offCoord gd (ix3 b s h) 0 = _
    rw [GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (show (0 : Fin 2) ∈ GatherDims.startIndexMap gd from List.mem_singleton.mpr rfl)]
    have hsi : GatherDims.siIdx gd (ix3 b s h) ⟨List.idxOf (0 : Fin 2) (GatherDims.startIndexMap gd),
        List.idxOf_lt_length_iff.2 (List.mem_singleton.mpr rfl)⟩ = ix3 b s 0 := by
      funext x; refine Fin.ext ?_
      match x with
      | ⟨0, _⟩ => rfl
      | ⟨1, _⟩ => rfl
      | ⟨2, _⟩ => rfl
    rw [hsi]
    rfl
  | ⟨1, _⟩ =>
    apply Fin.ext
    show GatherDims.start gd (ix3 b s h) idx 1 + GatherDims.batchCoord gd (ix3 b s h) 1
      + GatherDims.offCoord gd (ix3 b s h) 1 = h.val
    have h1 : (1 : Fin 2) ∉ GatherDims.startIndexMap gd := by
      show (1 : Fin 2) ∉ [0]
      decide
    have hk : (1 : Fin 2) ∈ GatherDims.sKept gd :=
      (GatherDims.mem_sKept _ _).2 ⟨by show (1 : Fin 2) ∉ [0]; decide, List.not_mem_nil⟩
    have hst : GatherDims.start gd (ix3 b s h) idx 1 = 0 := by
      unfold GatherDims.start
      rw [dif_neg h1]
    have hoff : GatherDims.offCoord gd (ix3 b s h) 1 = h.val := by
      unfold GatherDims.offCoord
      rw [dif_pos hk]
      rfl
    rw [hst, GatherDims.batchCoord_eq_zero _ _ _ List.not_mem_nil, hoff]
    omega

/-- THE TAKE AT THE POSITIONS: row s of the table, at every batch entry. The wrapped index at (b, s) is s, in
    range, so the mask selects the gathered value, and the gather reads row min s 4095 = s, column h. -/
theorem takeOut_posIds (tbl : FVec F S4096x1024 .f32) (b : Fin 4) (s : Fin 4096) (h : Fin 1024) :
    takeOut tbl posIds (ix3 b s h) = tbl (ix2 s h) := by
  unfold takeOut
  rw [select_apply, inRange_wrapIds_posIds, select_one, gather_apply]
  congr 1
  have hs := s.isLt
  have hrow : min (wrapIds posIds (ix3 b s 0)).toInt.toNat (4096 - 1) = s.val := by
    rw [wrapIds_posIds, toInt_ofNat_small _ (by omega)]
    simp only [Int.toNat_natCast]
    omega
  funext a
  match a with
  | ⟨0, _⟩ => exact Fin.ext hrow
  | ⟨1, _⟩ => rfl

end Cert.ReferenceIdeal.TakeAt

end
-- ==== Proof.RefRead.lean ====
/-
  The reference's result, entry by entry.

  Entry (b, s, h) of the embeddings is input(b, s, h) + table(s, h): the take at the positions reads the table's
  own rows.  The reference's row mean is the host sum of the row from zero, divided by 1024 and kept as a column;
  spread back over the row and subtracted it gives the deviations; the mean of their squares is the variance;
  and the result divides the deviation by the square root of variance + ε, scales by the weight's entry h and
  shifts by the bias's entry h.  So entry (b, s, h) is entry h of the normalised row in the divide spelling
  (`RowNorm.outDiv`).
-/
import proofs.«160059_g1580547974938_cont_week2b_934_14_alg».proof.Proof.RefTerm
import proofs.«160059_g1580547974938_cont_week2b_934_14_alg».proof.Proof.TakeAtPositions
import proofs.«160059_g1580547974938_cont_week2b_934_14_alg».proof.Proof.RowNorm
import Idealize.ShloMosaic.PureOps.Ideal.Laws
import Idealize.ShloMosaic.Lib.ValueIdx

noncomputable section

namespace Cert.ReferenceIdeal.Read

open Cert.ReferenceIdeal Cert.ReferenceIdeal.Gen Cert.ReferenceIdeal.Term Idealize.ShloMosaic Idealize.ShloMosaic.ValueIdx

/-- A column spread over the rows' entries reads, at (b, s, k), the column at (b, s). -/
theorem spread_apply (v : FVec Ideal S4x4096x1 .f32) (b : Fin 4) (s : Fin 4096) (k : Fin 1024) :
    spread v (ix3 b s k) = v (ix3 b s (0 : Fin 1)) := by
  unfold spread
  simp only [broadcastInDim]
  congr 1
  funext a
  match a with
  | ⟨0, _⟩ => rfl
  | ⟨1, _⟩ => rfl
  | ⟨2, _⟩ => rfl

/-- A vector of 1024 entries laid along every row reads, at (b, s, h), its entry h. -/
theorem alongRows_apply (w : FVec Ideal S1024 .f32) (b : Fin 4) (s : Fin 4096) (h : Fin 1024) :
    alongRows w (ix3 b s h) = w (ix1 h) := by
  unfold alongRows
  simp only [broadcastInDim]
  congr 1
  funext a
  match a with
  | ⟨0, _⟩ => rfl

/-- The host's sum of a row from zero is the sum of the row's entries. -/
theorem host_row_sum (e : FVec Ideal S4x4096x1024 .f32) (b : Fin 4) (s : Fin 4096) :
    Host.reduceAdd e (constant S_ .f32 0x00000000#32) reducesTo_S4x4096x1024_S4x4096_d2 h_S_ (ix2 b s)
      = ∑ k : Fin 1024, e (ix3 b s k) := by
  have hr : S4x4096x1024.Reduces [2] S4x4096 := by decide
  show Ideal.hostReduceAdd reducesTo_S4x4096x1024_S4x4096_d2 e (Ideal.ofBits .f32 0x00000000#32) (ix2 b s) = _
  rw [Ideal.hostReduceAdd_single reducesTo_S4x4096x1024_S4x4096_d2 hr, Ideal.ofBits_zero_f32, zero_add]
  refine Finset.sum_congr rfl fun k _ => congrArg e ?_
  funext a; apply Fin.ext
  match a with
  | ⟨0, _⟩ => rfl
  | ⟨1, _⟩ => rfl
  | ⟨2, _⟩ => rfl

/-- The column of row means at (b, s) is the mean of row (b, s). -/
theorem rowMean_apply (e : FVec Ideal S4x4096x1024 .f32) (b : Fin 4) (s : Fin 4096) :
    rowMean e (ix3 b s (0 : Fin 1)) = RowNorm.mean (fun k => e (ix3 b s k)) := by
  unfold rowMean
  show Ideal.div (broadcastInDim S4x4096x1 ![0, 1] bcast_S4x4096_S4x4096x1_0_1
      (Host.reduceAdd e (constant S_ .f32 0x00000000#32) reducesTo_S4x4096x1024_S4x4096_d2 h_S_) (ix3 b s (0 : Fin 1)))
    (Ideal.ofBits .f32 0x44800000#32) = _
  rw [TakeAt.col_apply, host_row_sum]
  rfl

variable (e : FVec Ideal S4x4096x1024 .f32)

/-- Row (b, s) of an array of embeddings. -/
def row (b : Fin 4) (s : Fin 4096) : Fin 1024 → EReal := fun k => e (ix3 b s k)

/-- The deviations from the row means. -/
theorem dev_apply (b : Fin 4) (s : Fin 4096) (k : Fin 1024) :
    subf e (spread (rowMean e)) (ix3 b s k) = row e b s k - RowNorm.mean (row e b s) := by
  show e (ix3 b s k) - spread (rowMean e) (ix3 b s k) = _
  rw [spread_apply, rowMean_apply]
  rfl

/-- The column of row variances at (b, s). -/
theorem var_apply (b : Fin 4) (s : Fin 4096) :
    rowMean (mulf (subf e (spread (rowMean e))) (subf e (spread (rowMean e)))) (ix3 b s (0 : Fin 1))
      = RowNorm.var (row e b s) := by
  rw [rowMean_apply]
  show RowNorm.mean _ = RowNorm.mean (fun k => (row e b s k - RowNorm.mean (row e b s)) * (row e b s k - RowNorm.mean (row e b s)))
  refine congrArg RowNorm.mean (funext fun k => ?_)
  show subf e (spread (rowMean e)) (ix3 b s k) * subf e (spread (rowMean e)) (ix3 b s k) = _
  rw [dev_apply]

/-- Entry (b, s, h) of the row normalisation is entry h of the normalised row, in the divide spelling. -/
theorem lnOut_apply (w g : FVec Ideal S1024 .f32) (b : Fin 4) (s : Fin 4096) (h : Fin 1024) :
    lnOut e w g (ix3 b s h) = RowNorm.outDiv (row e b s) (w (ix1 h)) (g (ix1 h)) h := by
  unfold lnOut
  show Ideal.div (subf e (spread (rowMean e)) (ix3 b s h))
        (spread (Host.sqrt (addf (rowMean (mulf (subf e (spread (rowMean e))) (subf e (spread (rowMean e)))))
          (broadcastInDim S4x4096x1 ![] bcast_S_S4x4096x1 (constant S_ .f32 0x3727C5AC#32)))) (ix3 b s h))
      * alongRows w (ix3 b s h) + alongRows g (ix3 b s h) = _
  rw [dev_apply, spread_apply, alongRows_apply, alongRows_apply]
  show Ideal.div _ (Ideal.sqrt (rowMean (mulf (subf e (spread (rowMean e))) (subf e (spread (rowMean e)))) (ix3 b s (0 : Fin 1))
      + Ideal.ofBits .f32 0x3727C5AC#32)) * _ + _ = _
  rw [var_apply]
  rfl

/-- Entry (b, s, h) of the reference's result, as a function of the four argument arrays. -/
theorem refOut_apply (x : FVec Ideal S4x4096x1024 .f32) (p : FVec Ideal S4096x1024 .f32) (w g : FVec Ideal S1024 .f32)
    (b : Fin 4) (s : Fin 4096) (h : Fin 1024) :
    refOut x p w g (ix3 b s h)
      = RowNorm.outDiv (fun k => x (ix3 b s k) + p (ix2 s k)) (w (ix1 h)) (g (ix1 h)) h := by
  unfold refOut
  rw [lnOut_apply]
  refine congrArg (fun r => RowNorm.outDiv r (w (ix1 h)) (g (ix1 h)) h) (funext fun k => ?_)
  show x (ix3 b s k) + takeOut p posIds (ix3 b s k) = _
  rw [TakeAt.takeOut_posIds]

end Cert.ReferenceIdeal.Read

end
-- ==== Proof.lean ====
/-
  The kernel adds the position table's rows to the input and normalises every row of 1024 entries (subtract the
  row's mean, multiply by the reciprocal square root of the row's variance plus ε, scale by the weight, shift by
  the bias), 512 rows of every batch entry per grid point.  The reference takes the table's rows at the positions
  0, 1, …, 4095, which are the table's own rows, adds them to the input and normalises every row the same way,
  except that it divides by the square root of variance + ε.

  At the extended reals both results are one function of the four argument arrays.  The two spellings of the
  normalisation agree because variance + ε lies in (0, ⊤]: a square is never negative there, so neither is a sum of
  squares nor its quotient by 1024, and ε is a positive real; on (0, ⊤], x · rsqrt y = x / sqrt y for every x.  The
  precondition is not used: the equality holds at infinite entries too.

  The three frames are the two kernels' frame certificates and the reference's run; the idealization rewrote no
  operation, so nothing is to be preserved.
-/
import proofs.«160059_g1580547974938_cont_week2b_934_14_alg».proof.Defs
import proofs.«160059_g1580547974938_cont_week2b_934_14_alg».proof.Proof.Gen.Kernel
import proofs.«160059_g1580547974938_cont_week2b_934_14_alg».proof.Proof.Gen.Kernel.Skeleton
import proofs.«160059_g1580547974938_cont_week2b_934_14_alg».proof.Proof.Gen.Kernel.Launch
import proofs.«160059_g1580547974938_cont_week2b_934_14_alg».proof.Proof.Gen.Kernel.Points
import proofs.«160059_g1580547974938_cont_week2b_934_14_alg».proof.Proof.Gen.Kernel.Frame
import proofs.«160059_g1580547974938_cont_week2b_934_14_alg».proof.Proof.Gen.KernelIdeal
import proofs.«160059_g1580547974938_cont_week2b_934_14_alg».proof.Proof.Gen.KernelIdeal.Skeleton
import proofs.«160059_g1580547974938_cont_week2b_934_14_alg».proof.Proof.Gen.KernelIdeal.Launch
import proofs.«160059_g1580547974938_cont_week2b_934_14_alg».proof.Proof.Gen.KernelIdeal.Points
import proofs.«160059_g1580547974938_cont_week2b_934_14_alg».proof.Proof.Gen.KernelIdeal.Frame
import proofs.«160059_g1580547974938_cont_week2b_934_14_alg».proof.Proof.Gen.KernelIdeal.Value
import proofs.«160059_g1580547974938_cont_week2b_934_14_alg».proof.Proof.Gen.ReferenceIdeal
import proofs.«160059_g1580547974938_cont_week2b_934_14_alg».proof.Proof.Gen.Pre_finite_inputs
import proofs.«160059_g1580547974938_cont_week2b_934_14_alg».proof.Proof.KernelArray
import proofs.«160059_g1580547974938_cont_week2b_934_14_alg».proof.Proof.RefRun
import proofs.«160059_g1580547974938_cont_week2b_934_14_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result and the kernel's result array are one function of the four arguments: entry
    (b, s, h) of either is entry h of the normalised row input(b, s, ·) + table(s, ·), and the two spellings of
    the normalisation agree on every row. -/
theorem result_eq (x : FVec Ideal Cert.KernelIdeal.S4x4096x1024 .f32) (p : FVec Ideal Cert.KernelIdeal.S4096x1024 .f32)
    (w g : FVec Ideal Cert.KernelIdeal.S1024 .f32) :
    Cert.ReferenceIdeal.Term.refOut x p w g = Cert.KernelIdeal.Whole.G x p w g := by
  funext i
  obtain ⟨b, s, h, rfl⟩ : ∃ (b : Fin 4) (s : Fin 4096) (h : Fin 1024), i = ix3 b s h := ⟨i 0, i 1, i 2, eq_ix3 i⟩
  rw [Cert.ReferenceIdeal.Read.refOut_apply]
  show _ = Cert.KernelIdeal.Whole.G3 x p w g b s h
  unfold Cert.KernelIdeal.Whole.G3
  exact (Cert.RowNorm.outMul_eq_outDiv _ _ _ _).symm

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Run.run (F := Ideal) m ρ)

/-- Both programs run; the kernel's output array and the reference's result end at the same function of
    arguments that agree. -/
theorem algebraic : Cert.algebraic_KernelIdeal_ReferenceIdeal := by
  intro m ρ m' ρ' _ hagree
  refine ⟨fun c => Cert.KernelIdeal.Whole.Garr m c, Cert.KernelIdeal.Whole.run m ρ, ?_⟩
  refine (θ_run Cert.ReferenceIdeal.defs _ _).mono (fun _ h c => ⟨(h c).1.trans ?_, (h c).2⟩)
    (Cert.ReferenceIdeal.Run.run (F := Ideal) m' ρ')
  rw [(hagree c).1, (hagree c).2.1, (hagree c).2.2.1, (hagree c).2.2.2]
  exact result_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
